-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S16384x4096 : Shape := ⟨2, ![16384, 4096]⟩
abbrev S1024x1024 : Shape := ⟨2, ![1024, 1024]⟩
abbrev S1x1024 : Shape := ⟨2, ![1, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S1x4096, .f32⟩
  | .hbm, ⟨9, _⟩ => ⟨S16384x4096, .f32⟩
  | .hbm, ⟨10, _⟩ => ⟨S16384x4096, .f32⟩
  | .hbm, ⟨11, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  shapeCasts_S4096_S1x4096 : S4096.ShapeCasts S1x4096
  shapeCasts_S4x4096x4096_S16384x4096 : S4x4096x4096.ShapeCasts S16384x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S4x4096x4096 : S16384x4096.ShapeCasts S4x4096x4096
  dot_S4096x16_S16x4096_S4096x4096_1_0_0_1_n_n_wf : DotDims.WF S4096x16 S16x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x4096.size a
  hwx0_3 : ∀ i : grid0.Coords, EltTy.bits .f32 = 32 ∨ (Rect.block (s := S16384x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4096x4096, .f32⟩
  | .hbm, ⟨10, _⟩ => ⟨S4x4096x4096, .f32⟩
  | .hbm, ⟨11, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  dot_S4x4096x4096_S4096x4096_S4x4096x4096_2_1_01_0_n_n_wf : DotDims.WF S4x4096x4096 S4096x4096 S4x4096x4096 [2] [1] [0, 1] [0] [] []
  dot_S4096x16_S16x4096_S4096x4096_1_0_0_1_n_n_wf : DotDims.WF S4096x16 S16x4096 S4096x4096 [1] [0] [0] [1] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.Layer.lean ====
/-
  A linear layer with a low-rank update, written two ways.

  For a row `x` of 4096 numbers, a weight matrix `W` (4096 × 4096, rows are outputs), a bias `b`, and a rank-16
  update `B · A` (`B` 4096 × 16, `A` 16 × 4096), output `o` of the layer is

      (∑ k, x k · W o k + b o) + ∑ k, x k · (B · A) o k                                   (the two products kept apart)

  or, with the update folded into the weight and the 4096 columns taken in four blocks of 1024,

      (∑ kb < 4, ∑ kk < 1024, x (1024 kb + kk) · (W o (1024 kb + kk) + (B · A) o (1024 kb + kk))) + b o.

  Over the extended reals the two agree when every entry is a real number: regrouping a finite sum into blocks
  needs only that addition is commutative and associative, but `x · (w + l) = x · w + x · l` fails at infinities, so
  the entries are taken to the reals first, where the identity is `mul_add` and `Finset.sum_add_distrib`.
-/
import Idealize.ShloMosaic.Lib.ValueIdx
import Idealize.ShloMosaic.PureOps.Ideal.Laws

noncomputable section

namespace Cert.Layer

open Idealize.ShloMosaic Idealize.ShloMosaic.ValueIdx

/-- Column `kk` of column block `kb`, as a column of the whole 4096 (four blocks of 1024). -/
def col (kb : ℕ) (kk : Fin 1024) : Fin 4096 := ⟨(1024 * kb + kk.val) % 4096, Nat.mod_lt _ (by decide)⟩

/-- Entry (o, k) of the rank-16 product `B · A`. -/
def lowRank (A : FVec Ideal ⟨2, ![16, 4096]⟩ .f32) (B : FVec Ideal ⟨2, ![4096, 16]⟩ .f32) (o k : Fin 4096) : EReal :=
  ∑ j : Fin 16, B (ix2 o j) * A (ix2 j k)

/-- The layer with the two products kept apart: `(x · Wᵀ + b) + x · (B A)ᵀ`. -/
def splitAt (x : FVec Ideal ⟨3, ![4, 4096, 4096]⟩ .f32) (W : FVec Ideal ⟨2, ![4096, 4096]⟩ .f32)
    (b : FVec Ideal ⟨1, ![4096]⟩ .f32) (A : FVec Ideal ⟨2, ![16, 4096]⟩ .f32) (B : FVec Ideal ⟨2, ![4096, 16]⟩ .f32)
    (n : Fin 4) (s o : Fin 4096) : EReal :=
  (∑ k : Fin 4096, x (ix3 n s k) * W (ix2 o k) + b (ix1 o)) + ∑ k : Fin 4096, x (ix3 n s k) * lowRank A B o k

/-- The same as an array. -/
def split (x : FVec Ideal ⟨3, ![4, 4096, 4096]⟩ .f32) (W : FVec Ideal ⟨2, ![4096, 4096]⟩ .f32)
    (b : FVec Ideal ⟨1, ![4096]⟩ .f32) (A : FVec Ideal ⟨2, ![16, 4096]⟩ .f32) (B : FVec Ideal ⟨2, ![4096, 16]⟩ .f32) :
    FVec Ideal ⟨3, ![4, 4096, 4096]⟩ .f32 := fun i => splitAt x W b A B (i 0) (i 1) (i 2)

/-- One column block's share of output `o` with the update folded into the weight. -/
def blockDot (x : FVec Ideal ⟨3, ![4, 4096, 4096]⟩ .f32) (W : FVec Ideal ⟨2, ![4096, 4096]⟩ .f32)
    (A : FVec Ideal ⟨2, ![16, 4096]⟩ .f32) (B : FVec Ideal ⟨2, ![4096, 16]⟩ .f32) (n : Fin 4) (s o : Fin 4096) (kb : ℕ) : EReal :=
  ∑ kk : Fin 1024, x (ix3 n s (col kb kk)) * (W (ix2 o (col kb kk)) + lowRank A B o (col kb kk))

/-- The layer with the update folded into the weight, the columns block by block, the bias last. -/
def foldedAt (x : FVec Ideal ⟨3, ![4, 4096, 4096]⟩ .f32) (W : FVec Ideal ⟨2, ![4096, 4096]⟩ .f32)
    (b : FVec Ideal ⟨1, ![4096]⟩ .f32) (A : FVec Ideal ⟨2, ![16, 4096]⟩ .f32) (B : FVec Ideal ⟨2, ![4096, 16]⟩ .f32)
    (n : Fin 4) (s o : Fin 4096) : EReal :=
  (∑ kb ∈ Finset.range 4, blockDot x W A B n s o kb) + b (ix1 o)

/-- The same as an array. -/
def folded (x : FVec Ideal ⟨3, ![4, 4096, 4096]⟩ .f32) (W : FVec Ideal ⟨2, ![4096, 4096]⟩ .f32)
    (b : FVec Ideal ⟨1, ![4096]⟩ .f32) (A : FVec Ideal ⟨2, ![16, 4096]⟩ .f32) (B : FVec Ideal ⟨2, ![4096, 16]⟩ .f32) :
    FVec Ideal ⟨3, ![4, 4096, 4096]⟩ .f32 := fun i => foldedAt x W b A B (i 0) (i 1) (i 2)

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over four blocks of 1024 columns is the sum over all 4096 columns. -/
theorem sum_blocks (f : Fin 4096 → EReal) :
    ∑ kb ∈ Finset.range 4, ∑ kk : Fin 1024, f (col kb kk) = ∑ k : Fin 4096, f k := by
  rw [Finset.sum_range (fun kb => ∑ kk : Fin 1024, f (col kb kk)), ← Fintype.sum_prod_type']
  refine Fintype.sum_equiv (finProdFinEquiv (m := 4) (n := 1024)) _ _ fun p => ?_
  congr 1
  apply Fin.ext
  show (1024 * p.1.val + p.2.val) % 4096 = p.2.val + 1024 * p.1.val
  have h1 := p.1.isLt
  have h2 := p.2.isLt
  omega

/-- A real is neither infinity. -/
theorem real_of_finite {a : EReal} (h : a ≠ ⊤ ∧ a ≠ ⊥) : ((a.toReal : ℝ) : EReal) = a := EReal.coe_toReal h.1 h.2

/-- The rank-16 product of real matrices has real entries. -/
theorem lowRank_finite (A : FVec Ideal ⟨2, ![16, 4096]⟩ .f32) (B : FVec Ideal ⟨2, ![4096, 16]⟩ .f32)
    (hA : ∀ i, A i ≠ ⊤ ∧ A i ≠ ⊥) (hB : ∀ i, B i ≠ ⊤ ∧ B i ≠ ⊥) (o k : Fin 4096) :
    lowRank A B o k ≠ ⊤ ∧ lowRank A B o k ≠ ⊥ := by
  have e : lowRank A B o k = ((∑ j : Fin 16, (B (ix2 o j)).toReal * (A (ix2 j k)).toReal : ℝ) : EReal) := by
    rw [coe_sum]
    unfold lowRank
    refine Finset.sum_congr rfl fun j _ => ?_
    rw [EReal.coe_mul, real_of_finite (hB _), real_of_finite (hA _)]
  rw [e]
  exact ⟨EReal.coe_ne_top _, EReal.coe_ne_bot _⟩

/-- Folding a second weight into the first, over real entries: `∑ x (w + l) + β = (∑ x w + β) + ∑ x l`. -/
theorem fold_weights {κ : Type*} [Fintype κ] (x w l : κ → EReal) (β : EReal)
    (hx : ∀ k, x k ≠ ⊤ ∧ x k ≠ ⊥) (hw : ∀ k, w k ≠ ⊤ ∧ w k ≠ ⊥) (hl : ∀ k, l k ≠ ⊤ ∧ l k ≠ ⊥) (hβ : β ≠ ⊤ ∧ β ≠ ⊥) :
    (∑ k, x k * (w k + l k)) + β = ((∑ k, x k * w k) + β) + ∑ k, x k * l k := by
  obtain ⟨xr, rfl⟩ : ∃ xr : κ → ℝ, x = fun k => (xr k : EReal) := ⟨fun k => (x k).toReal, funext fun k => (real_of_finite (hx k)).symm⟩
  obtain ⟨wr, rfl⟩ : ∃ wr : κ → ℝ, w = fun k => (wr k : EReal) := ⟨fun k => (w k).toReal, funext fun k => (real_of_finite (hw k)).symm⟩
  obtain ⟨lr, rfl⟩ : ∃ lr : κ → ℝ, l = fun k => (lr k : EReal) := ⟨fun k => (l k).toReal, funext fun k => (real_of_finite (hl k)).symm⟩
  obtain ⟨βr, rfl⟩ : ∃ βr : ℝ, β = (βr : EReal) := ⟨β.toReal, (real_of_finite hβ).symm⟩
  simp only [← EReal.coe_add, ← EReal.coe_mul, ← coe_sum]
  congr 1
  simp only [mul_add, Finset.sum_add_distrib]
  ring

/-- Over real entries the folded, blocked layer is the layer with the two products kept apart. -/
theorem foldedAt_eq_splitAt (x : FVec Ideal ⟨3, ![4, 4096, 4096]⟩ .f32) (W : FVec Ideal ⟨2, ![4096, 4096]⟩ .f32)
    (b : FVec Ideal ⟨1, ![4096]⟩ .f32) (A : FVec Ideal ⟨2, ![16, 4096]⟩ .f32) (B : FVec Ideal ⟨2, ![4096, 16]⟩ .f32)
    (hx : ∀ i, x i ≠ ⊤ ∧ x i ≠ ⊥) (hW : ∀ i, W i ≠ ⊤ ∧ W i ≠ ⊥) (hb : ∀ i, b i ≠ ⊤ ∧ b i ≠ ⊥)
    (hA : ∀ i, A i ≠ ⊤ ∧ A i ≠ ⊥) (hB : ∀ i, B i ≠ ⊤ ∧ B i ≠ ⊥) (n : Fin 4) (s o : Fin 4096) :
    foldedAt x W b A B n s o = splitAt x W b A B n s o := by
  unfold foldedAt splitAt blockDot
  rw [sum_blocks (fun k => x (ix3 n s k) * (W (ix2 o k) + lowRank A B o k))]
  exact fold_weights (fun k => x (ix3 n s k)) (fun k => W (ix2 o k)) (fun k => lowRank A B o k) (b (ix1 o))
    (fun k => hx _) (fun k => hW _) (fun k => lowRank_finite A B hA hB o k) (hb _)

/-- The same for the arrays. -/
theorem folded_eq_split (x : FVec Ideal ⟨3, ![4, 4096, 4096]⟩ .f32) (W : FVec Ideal ⟨2, ![4096, 4096]⟩ .f32)
    (b : FVec Ideal ⟨1, ![4096]⟩ .f32) (A : FVec Ideal ⟨2, ![16, 4096]⟩ .f32) (B : FVec Ideal ⟨2, ![4096, 16]⟩ .f32)
    (hx : ∀ i, x i ≠ ⊤ ∧ x i ≠ ⊥) (hW : ∀ i, W i ≠ ⊤ ∧ W i ≠ ⊥) (hb : ∀ i, b i ≠ ⊤ ∧ b i ≠ ⊥)
    (hA : ∀ i, A i ≠ ⊤ ∧ A i ≠ ⊥) (hB : ∀ i, B i ≠ ⊤ ∧ B i ≠ ⊥) :
    folded x W b A B = split x W b A B :=
  funext fun i => foldedAt_eq_splitAt x W b A B hx hW hb hA hB (i 0) (i 1) (i 2)

end Cert.Layer

end
-- ==== Proof.Finite.lean ====
/-
  What the precondition says of the inputs: every entry is a real number.

  The precondition is the conjunction, over the five inputs, of "every entry's absolute value is below +∞". Over the
  extended reals `max a (-a) < ⊤` excludes both infinities, so each entry is a real; a conjunction of single bits is
  one exactly when both are, and an "all" over an array that came out one met a one at every index.
-/
import proofs.«116034_j19954418057628_1_alg».proof.Proof.Gen.Pre_finite_inputs
import Idealize.ShloMosaic.Lib.ValueIdx
import Idealize.ShloMosaic.Lib.ReduceAll
import Idealize.ShloMosaic.PureOps.Ideal.Laws

noncomputable section

namespace Cert.Finite

open Idealize.ShloMosaic Cert.Pre_finite_inputs

/-- The shape with no axes has one index. -/
instance : Subsingleton S_.Idx := ⟨fun _ _ => funext fun d => d.elim0⟩

/-- An extended real whose absolute value compares below the f32 pattern of +∞ is neither infinity. -/
theorem real_of_abs_lt (a : EReal) (h : Ideal.cmp .olt (max a (-a)) (Ideal.ofBits .f32 0x7F800000#32) = 1#1) :
    a ≠ ⊤ ∧ a ≠ ⊥ := by
  have hinf : Ideal.ofBits .f32 0x7F800000#32 = (⊤ : EReal) := by simp [Ideal.ofBits, Ideal.ieee]
  rw [hinf] at h
  have hlt : max a (-a) < ⊤ := by
    by_contra hn
    simp [Ideal.cmp, hn] at h
  constructor
  · rintro rfl; simp at hlt
  · rintro rfl; simp at hlt

/-- The same for an entry of an array compared, entry by entry, against +∞ laid over the array's shape. -/
theorem real_of_entry {s : Shape} (v : FVec Ideal s .f32) (hb : S_.BroadcastsInDim s (![] : Fin 0 → Fin s.rank)) (i : s.Idx)
    (h : cmpf .olt (Host.absf v) (broadcastInDim s ![] hb (constant (F := Ideal) S_ .f32 0x7F800000#32)) i = 1#1) :
    v i ≠ ⊤ ∧ v i ≠ ⊥ := real_of_abs_lt (v i) h

/-- Under the precondition every entry of every input is a real number. -/
theorem of_pre (x : FVec Ideal S4x4096x4096 .f32) (W : FVec Ideal S4096x4096 .f32) (b : FVec Ideal S4096 .f32)
    (A : FVec Ideal S16x4096 .f32) (B : FVec Ideal S4096x16 .f32) (h : fn (F := Ideal) x W b A B = fun _ => 1#1) :
    (∀ i, x i ≠ ⊤ ∧ x i ≠ ⊥) ∧ (∀ i, W i ≠ ⊤ ∧ W i ≠ ⊥) ∧ (∀ i, b i ≠ ⊤ ∧ b i ≠ ⊥)
      ∧ (∀ i, A i ≠ ⊤ ∧ A i ≠ ⊥) ∧ (∀ i, B i ≠ ⊤ ∧ B i ≠ ⊥) := by
  have h0 := congrFun h ValueIdx.ix0
  dsimp only [fn, fn_part1] at h0
  obtain ⟨h0123, hB⟩ := IntOp.andi_eq_one.1 h0
  obtain ⟨h012, hA⟩ := IntOp.andi_eq_one.1 h0123
  obtain ⟨h01, hb⟩ := IntOp.andi_eq_one.1 h012
  obtain ⟨hx, hW⟩ := IntOp.andi_eq_one.1 h01
  exact ⟨fun i => real_of_entry x _ i (Host.reduce_andi_all _ _ _ _ _ hx i),
    fun i => real_of_entry W _ i (Host.reduce_andi_all _ _ _ _ _ hW i),
    fun i => real_of_entry b _ i (Host.reduce_andi_all _ _ _ _ _ hb i),
    fun i => real_of_entry A _ i (Host.reduce_andi_all _ _ _ _ _ hA i),
    fun i => real_of_entry B _ i (Host.reduce_andi_all _ _ _ _ _ hB i)⟩

end Cert.Finite

end
-- ==== Proof.RefLayer.lean ====
/-
  The reference program's result, entry by entry: the layer with its two products kept apart.

  Entry (n, s, o) of the result is `(∑ k, x (n, s, k) · W (o, k) + b o) + ∑ k, x (n, s, k) · (∑ j, B (o, j) · A (j, k))`:
  the base product contracts `x`'s last axis with `W`'s second, the bias is laid along the last axis, and the update
  `B · A` (contracted over the rank) enters through a second product of the same kind.
-/
import proofs.«116034_j19954418057628_1_alg».proof.Proof.Gen.ReferenceIdeal.Read
import proofs.«116034_j19954418057628_1_alg».proof.Proof.Layer

noncomputable section

namespace Cert.ReferenceIdeal.Whole

open Cert.ReferenceIdeal Cert.ReferenceIdeal.Read Idealize.ShloMosaic Idealize.ShloMosaic.ValueIdx

/-- The reference's composed stages are the layer with the two products kept apart. -/
theorem result_eq (x : FVec Ideal S4x4096x4096 .f32) (W : FVec Ideal S4096x4096 .f32) (b : FVec Ideal S4096 .f32)
    (A : FVec Ideal S16x4096 .f32) (B : FVec Ideal S4096x16 .f32) :
    val_main_v6 (F := Ideal) x W b A B = Cert.Layer.split x W b A B := by
  funext i
  obtain ⟨n, s, o, rfl⟩ : ∃ (n : Fin 4) (s o : Fin 4096), i = ix3 n s o := ⟨i 0, i 1, i 2, eq_ix3 i⟩
  have ex : ∀ k : Fin 4096, lidx_main_v0 (ix3 n s o) k = ix3 n s k := fun k => funext fun a => Fin.ext (by
    match a with
    | ⟨0, _⟩ => rfl
    | ⟨1, _⟩ => rfl
    | ⟨2, _⟩ => rfl)
  have ew : ∀ k : Fin 4096, ridx_main_v0 (ix3 n s o) k = ix2 o k := fun k => funext fun a => Fin.ext (by
    match a with
    | ⟨0, _⟩ => rfl
    | ⟨1, _⟩ => rfl)
  have eb : idx_main_v1 (idx_main_v2 (ix3 n s o)) = ix1 o := funext fun a => Fin.ext (by
    match a with
    | ⟨0, _⟩ => rfl)
  have ex' : ∀ k : Fin 4096, lidx_main_v5 (ix3 n s o) k = ix3 n s k := fun k => funext fun a => Fin.ext (by
    match a with
    | ⟨0, _⟩ => rfl
    | ⟨1, _⟩ => rfl
    | ⟨2, _⟩ => rfl)
  have eB : ∀ (k : Fin 4096) (j : Fin 16), lidx_main_v4 (ridx_main_v5 (ix3 n s o) k) j = ix2 o j := fun k j =>
    funext fun a => Fin.ext (by
      match a with
      | ⟨0, _⟩ => rfl
      | ⟨1, _⟩ => rfl)
  have eA : ∀ (k : Fin 4096) (j : Fin 16), ridx_main_v4 (ridx_main_v5 (ix3 n s o) k) j = ix2 j k := fun k j =>
    funext fun a => Fin.ext (by
      match a with
      | ⟨0, _⟩ => rfl
      | ⟨1, _⟩ => rfl)
  rw [val_main_v6_apply, val_main_v3_apply, val_main_v0_apply, val_main_v2_apply, val_main_v1_apply, val_main_v5_apply]
  simp only [val_main_v4_apply, ex, ew, eb, ex', eB, eA]
  rfl

end Cert.ReferenceIdeal.Whole

end
-- ==== Proof.Found.lean ====
/-
  What one run of the kernel body leaves behind, as values.

  The body keeps a 1024 × 1024 accumulator across the grid's last axis. At the axis' first position it stores zero into
  the accumulator, reads it back and stores `0 + x·w`; at the later positions it stores `acc + x·w` over what the
  position before left; at the last position it also stores `acc + bias` into the output tile, reading the accumulator
  it has just written. Each buffer is written through one rectangle that is the whole buffer, so what a buffer ends
  holding is the last value stored into it, and a load of a whole buffer is the buffer's contents.
-/
import proofs.«116034_j19954418057628_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Found

open Cert.KernelIdeal Cert.KernelIdeal.Gen

variable {F : FTy → Type} [FloatOps F]

/-- The offset of a rectangle that is the whole buffer. -/
theorem hz : (![0, 0] : Fin 2 → Nat) = fun _ => 0 := funext fun a => by fin_cases a <;> rfl

/-- At the axis' first position the accumulator ends at the update of the zero it was reset to. -/
theorem acc_first (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1024x1024 .f32) (x2 : Vec F S1x1024 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- At a middle position the accumulator ends at the update of what it held. -/
theorem acc_middle (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1024x1024 .f32) (x2 : Vec F S1x1024 .f32) (xs0 : Vec F S1024x1024 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread, View.ld_unit_zero (S := S1024x1024) hz]

/-- At the last position the accumulator ends at the update of what it held, -/
theorem acc_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread, View.ld_unit_zero (S := S1024x1024) hz]

/-- and the output tile at that accumulator plus the bias row. -/
theorem out_last (c : Dev nD) (i : grid0.Coords) (arg3 : Memref sig .tc .vmem S1024x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1024x1024 .f32) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x1024) hz, View.ld_unit_zero (S := S1x1024) hz]

end Cert.KernelIdeal.Found

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.Tile.lean ====
/-
  The kernel body's three stored values, entry by entry, over the extended reals.

  A change of float format is the identity there, so the body's tile product is the plain sum of products: the reset
  value is zero everywhere; the update adds to the accumulator's entry (p, q) the sum over the 1024 positions `kk` of
  the left tile's (p, kk) times the right tile's (kk, q); the value written out adds the bias row's entry q to the
  accumulator's entry (p, q).
-/
import proofs.«116034_j19954418057628_1_alg».proof.Proof.Gen.KernelIdeal.Skeleton
import proofs.«116034_j19954418057628_1_alg».proof.Proof.LibDense
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Idealize.ShloMosaic Idealize.ShloMosaic.ValueIdx Cert.KernelIdeal Cert.KernelIdeal.Gen

/-- The tile product's dimension numbers are the rows-by-columns ones. -/
theorem tileDims : dot_S1024x1024_S1024x1024_S1024x1024_1_0_0_1_n_n = DotDims.plain 1024 1024 1024 := rfl

/-- The reset value: zero at every entry. -/
theorem reset_apply (i : S1024x1024.Idx) : k0_pay1 (F := Ideal) i = 0 := by
  unfold k0_pay1
  simp only [shapeCast_self]
  exact Ideal.ofBits_zero_f32

/-- The update: the accumulator's entry plus the tile product's. -/
theorem update_apply (xa wa acc : Vec Ideal S1024x1024 .f32) (p q : Fin 1024) :
    k0_pay2 xa wa acc (ix2 p q) = acc (ix2 p q) + ∑ kk : Fin 1024, xa (ix2 p kk) * wa (ix2 kk q) := by
  unfold k0_pay2
  simp only [shapeCast_self]
  rw [tileDims]
  show acc (ix2 p q) + FloatOps.matmul (F := Ideal) (DotDims.plain 1024 1024 1024) none (truncf (F := Ideal) .bf16 xa bitsLt_bf16_f32)
      (truncf (F := Ideal) .bf16 wa bitsLt_bf16_f32) (constant (F := Ideal) ⟨2, ![1024, 1024]⟩ .f32 0x00000000#32) (ix2 p q) = _
  rw [Cert.LibDense.matmul_plain_zero_apply]
  rfl

/-- The value written out: the accumulator's entry plus the bias row's. -/
theorem emit_apply (acc : Vec Ideal S1024x1024 .f32) (bias : Vec Ideal S1x1024 .f32) (p q : Fin 1024) :
    k0_pay3 acc bias (ix2 p q) = acc (ix2 p q) + bias (ix2 (0 : Fin 1) q) := by
  unfold k0_pay3
  simp only [shapeCast_self]
  show acc (ix2 p q) + broadcastTo ⟨2, ![1024, 1024]⟩ bias _ (ix2 p q) = _
  rw [broadcastTo_1b_ab_apply]

end Cert.KernelIdeal.Tile

end
-- ==== Proof.Entry.lean ====
/-
  What the kernel region finds in its three operand arrays, and what each grid point's tiles are.

  Before the region the program flattens `x` to 16384 rows (row `r` is batch `r / 4096`, position `r % 4096`), folds the
  rank-16 update into the weight and transposes it (entry (k, o) of the operand is `W o k + (B·A) o k`), and lays the
  bias out as one row. Grid point `t` of the 16 × 4 × 4 grid is row tile `t / 16`, column tile `t / 4 % 4` and
  contraction block `t % 4`; with `g = t / 4` the row tile is `g / 4` and the column tile `g % 4`. A tile's entry
  (p, q) is the array's entry at (1024 · tile row + p, 1024 · tile column + q).
-/
import proofs.«116034_j19954418057628_1_alg».proof.Proof.Gen.KernelIdeal.Frame
import proofs.«116034_j19954418057628_1_alg».proof.Proof.Layer
import proofs.«116034_j19954418057628_1_alg».proof.Proof.LibDense
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.Entry

open Cert.KernelIdeal Cert.KernelIdeal.Gen Cert.Layer

variable (m : (ℓ : Loc nD τ sig) → Buf (Elt Ideal) ℓ)

/-! ## The arguments and the rows of the flattened input -/

/-- The five argument arrays on core `c`, as the launch finds them. -/
abbrev argX (c : Dev nD) : FVec Ideal S4x4096x4096 .f32 := m ((c : Thread nD τ).loc main_arg0)
abbrev argW (c : Dev nD) : FVec Ideal S4096x4096 .f32 := m ((c : Thread nD τ).loc main_arg1)
abbrev argBias (c : Dev nD) : FVec Ideal S4096 .f32 := m ((c : Thread nD τ).loc main_arg2)
abbrev argA (c : Dev nD) : FVec Ideal S16x4096 .f32 := m ((c : Thread nD τ).loc main_arg3)
abbrev argB (c : Dev nD) : FVec Ideal S4096x16 .f32 := m ((c : Thread nD τ).loc main_arg4)

/-- Row `r` of the flattened input is batch `r / 4096`, -/
def batchOf (r : Fin 16384) : Fin 4 := ⟨r.val / 4096, by have := r.isLt; omega⟩
/-- position `r % 4096`. -/
def posOf (r : Fin 16384) : Fin 4096 := ⟨r.val % 4096, Nat.mod_lt _ (by decide)⟩
/-- Row `p` of the row tile of group `g` (the group's row tile is `g / 4`). -/
def rowOf (g : ℕ) (p : Fin 1024) : Fin 16384 := ⟨(1024 * (g / 4) + p.val) % 16384, Nat.mod_lt _ (by decide)⟩
/-- Column `q` of the column tile of group `g` (the group's column tile is `g % 4`). -/
def outOf (g : ℕ) (q : Fin 1024) : Fin 4096 := col (g % 4) q

/-! ## The operand arrays as the region finds them -/

theorem flatX (c : Dev nD) : (V m c main_v4 : S16384x4096.Idx → EReal)
    = shapeCast S16384x4096 (argX m c) shapeCasts_S4x4096x4096_S16384x4096 := by
  show StableHlo.after hostOps0 (fun b => m (c, b)) (Proc.devRef .tc main_v4) = _
  after_results
  rfl

theorem biasRow (c : Dev nD) : (V m c main_v3 : S1x4096.Idx → EReal)
    = shapeCast S1x4096 (argBias m c) shapeCasts_S4096_S1x4096 := by
  show StableHlo.after hostOps0 (fun b => m (c, b)) (Proc.devRef .tc main_v3) = _
  after_results
  rfl

theorem weightT (c : Dev nD) : (V m c main_v2 : S4096x4096.Idx → EReal)
    = transpose S4096x4096 [1, 0] (addf (argW m c)
        (Host.dotGeneral (F := Ideal) dot_S4096x16_S16x4096_S4096x4096_1_0_0_1_n_n none (argB m c) (argA m c)))
      transposes_S4096x4096_S4096x4096_1_0 := by
  show StableHlo.after hostOps0 (fun b => m (c, b)) (Proc.devRef .tc main_v2) = _
  after_results

/-- The flattened input at (r, k) is `x` at (batch, position, k). -/
theorem flatX_apply (c : Dev nD) (r : Fin 16384) (k : Fin 4096) :
    (V m c main_v4 : S16384x4096.Idx → EReal) (ix2 r k) = argX m c (ix3 (batchOf r) (posOf r) k) := by
  rw [flatX]
  refine shapeCast_apply _ _ _ _ ?_
  rw [Shape.rowMajor_val_three, Shape.rowMajor_val_two]
  show ((r.val / 4096) * 4096 + r.val % 4096) * 4096 + k.val = r.val * 4096 + k.val
  have := r.isLt
  omega

/-- The bias row at (0, o) is the bias at `o`. -/
theorem biasRow_apply (c : Dev nD) (o : Fin 4096) :
    (V m c main_v3 : S1x4096.Idx → EReal) (ix2 (0 : Fin 1) o) = argBias m c (ix1 o) := by
  rw [biasRow]
  refine shapeCast_apply _ _ _ _ ?_
  rw [Shape.rowMajor_val_one, Shape.rowMajor_val_two]
  show o.val = 0 * 4096 + o.val
  omega

/-- The update's product has the rows-by-columns dimension numbers. -/
theorem updateDims : dot_S4096x16_S16x4096_S4096x4096_1_0_0_1_n_n = DotDims.plain 4096 16 4096 := rfl

/-- The folded, transposed weight at (k, o) is `W o k + (B·A) o k`. -/
theorem weightT_apply (c : Dev nD) (k o : Fin 4096) :
    (V m c main_v2 : S4096x4096.Idx → EReal) (ix2 k o)
      = argW m c (ix2 o k) + lowRank (argA m c) (argB m c) o k := by
  rw [weightT]
  rw [transpose_apply [1, 0] _ transposes_S4096x4096_S4096x4096_1_0 (ix2 k o) (ix2 o k) (fun b => by
    match b with
    | ⟨0, _⟩ => rfl
    | ⟨1, _⟩ => rfl)]
  show argW m c (ix2 o k) + FloatOps.dotGeneral dot_S4096x16_S16x4096_S4096x4096_1_0_0_1_n_n none .single (argB m c) (argA m c) (ix2 o k) = _
  rw [updateDims, Cert.LibDense.dotGeneral_plain_apply]
  rfl

/-! ## The grid points' tiles -/

/-- The tiles point `t` loads, at their literal types. -/
abbrev xTile (c : Dev nD) (t : Fin cfg0.N) : Vec Ideal S1024x1024 .f32 := iblk m c 0 t
abbrev wTile (c : Dev nD) (t : Fin cfg0.N) : Vec Ideal S1024x1024 .f32 := iblk m c 1 t
abbrev bTile (c : Dev nD) (t : Fin cfg0.N) : Vec Ideal S1x1024 .f32 := iblk m c 2 t

/-- The printed index maps over the grid: row tile `t / 16`, column tile `t / 4 % 4`, contraction block `t % 4`. -/
theorem tileIdx : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- The input tile's entry (p, kk) is `x` at the group's row `p` and column `kk` of the point's block. -/
theorem xTile_apply (c : Dev nD) (t : Fin cfg0.N) (p kk : Fin 1024) :
    xTile m c t (ix2 p kk)
      = argX m c (ix3 (batchOf (rowOf (t.val / 4) p)) (posOf (rowOf (t.val / 4) p)) (col (t.val % 4) kk)) := by
  obtain ⟨e0, e1, -⟩ := tileIdx t
  have hN : t.val < 256 := lt_of_lt_of_eq t.isLt N_0
  rw [← flatX_apply]
  show ((cfg0.win 0).blk t).view.read (Elt Ideal) (V m c main_v4) (ix2 p kk) = _
  rw [View.read_apply]
  refine congrArg (V m c main_v4 : S16384x4096.Idx → EReal) (funext fun a => Fin.ext ?_)
  have hp := p.isLt
  have hk := kk.isLt
  match a with
  | ⟨0, _⟩ =>
    show win0_0.index t (0 : Fin 2) * 1024 + 1 * p.val = (1024 * (t.val / 4 / 4) + p.val) % 16384
    rw [e0]; omega
  | ⟨1, _⟩ =>
    show win0_0.index t (1 : Fin 2) * 1024 + 1 * kk.val = (1024 * (t.val % 4) + kk.val) % 4096
    rw [e1]; omega

/-- The weight tile's entry (kk, q) is the folded weight of the group's output column `q` at column `kk` of the block. -/
theorem wTile_apply (c : Dev nD) (t : Fin cfg0.N) (kk q : Fin 1024) :
    wTile m c t (ix2 kk q)
      = argW m c (ix2 (outOf (t.val / 4) q) (col (t.val % 4) kk))
        + lowRank (argA m c) (argB m c) (outOf (t.val / 4) q) (col (t.val % 4) kk) := by
  obtain ⟨-, -, e0, e1, -⟩ := tileIdx t
  have hN : t.val < 256 := lt_of_lt_of_eq t.isLt N_0
  rw [← weightT_apply]
  show ((cfg0.win 1).blk t).view.read (Elt Ideal) (V m c main_v2) (ix2 kk q) = _
  rw [View.read_apply]
  refine congrArg (V m c main_v2 : S4096x4096.Idx → EReal) (funext fun a => Fin.ext ?_)
  have hq := q.isLt
  have hk := kk.isLt
  match a with
  | ⟨0, _⟩ =>
    show win0_1.index t (0 : Fin 2) * 1024 + 1 * kk.val = (1024 * (t.val % 4) + kk.val) % 4096
    rw [e0]; omega
  | ⟨1, _⟩ =>
    show win0_1.index t (1 : Fin 2) * 1024 + 1 * q.val = (1024 * (t.val / 4 % 4) + q.val) % 4096
    rw [e1]; omega

/-- The bias tile's entry (0, q) is the bias of the group's output column `q`. -/
theorem bTile_apply (c : Dev nD) (t : Fin cfg0.N) (q : Fin 1024) :
    bTile m c t (ix2 (0 : Fin 1) q) = argBias m c (ix1 (outOf (t.val / 4) q)) := by
  obtain ⟨-, -, -, -, e0, e1, -⟩ := tileIdx t
  have hN : t.val < 256 := lt_of_lt_of_eq t.isLt N_0
  rw [← biasRow_apply]
  show ((cfg0.win 2).blk t).view.read (Elt Ideal) (V m c main_v3) (ix2 (0 : Fin 1) q) = _
  rw [View.read_apply]
  refine congrArg (V m c main_v3 : S1x4096.Idx → EReal) (funext fun a => Fin.ext ?_)
  have hq := q.isLt
  match a with
  | ⟨0, _⟩ =>
    show win0_2.index t (0 : Fin 2) * 1 + 1 * 0 = 0
    rw [e0]
  | ⟨1, _⟩ =>
    show win0_2.index t (1 : Fin 2) * 1024 + 1 * q.val = (1024 * (t.val / 4 % 4) + q.val) % 4096
    rw [e1]; omega

end Cert.KernelIdeal.Entry

end
-- ==== Proof.Accum.lean ====
/-
  The accumulator across a group of four grid points, and the tile written out at the group's last point.

  Grid points come in groups of four (`g = t / 4`, position `t % 4` in the group): the same output tile, the four
  contraction blocks in order. After the point at position `k` the accumulator's entry (p, q) is the sum, over the
  blocks `0 … k`, of the block's share of output column `q` of the group at row `p` of the group — by induction on
  the point: the first position starts from zero, each later one adds its block to what the point before left. At
  position 3 the body writes out the accumulator plus the bias row, which is the whole folded layer at that entry.
-/
import proofs.«116034_j19954418057628_1_alg».proof.Proof.Found
import proofs.«116034_j19954418057628_1_alg».proof.Proof.Tile
import proofs.«116034_j19954418057628_1_alg».proof.Proof.Entry

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Entry Cert.Layer

variable (m : (ℓ : Loc nD τ sig) → Buf (Elt Ideal) ℓ)

/-! ## One point's step, as values -/

/-- At a group's first point the accumulator ends at the update of zero by the point's tiles. -/
theorem step_first (c : Dev nD) (t : Fin cfg0.N) (h0 : t.val % 4 = 0) :
    (outsAt0 m c t.val t.isLt).2 = k0_pay2 (xTile m c t) (wTile m c t) (k0_pay1 (F := Ideal)) := by
  have h1 : ¬t.val % 4 = 3 := by omega
  rw [outsAt0_A m c t h0 h1]
  dsimp only
  exact Found.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (xTile m c t) (wTile m c t) (bTile m c t)

/-- At a later point it ends at the update of what the point before left. -/
theorem step_next (c : Dev nD) (n : ℕ) (h : n + 1 < cfg0.N) (h0 : ¬(n + 1) % 4 = 0) :
    (outsAt0 m c (n + 1) h).2
      = k0_pay2 (xTile m c ⟨n + 1, h⟩) (wTile m c ⟨n + 1, h⟩) (outsAt0 m c n (Nat.lt_of_succ_lt h)).2 := by
  by_cases h1 : (n + 1) % 4 = 3
  · rw [outsAt0_C m c ⟨n + 1, h⟩ h0 h1]
    dsimp only
    exact Found.acc_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1)
      (xTile m c ⟨n + 1, h⟩) (wTile m c ⟨n + 1, h⟩) (bTile m c ⟨n + 1, h⟩) (outsAt0 m c n (Nat.lt_of_succ_lt h)).2
  · rw [outsAt0_B m c ⟨n + 1, h⟩ h0 h1]
    dsimp only
    exact Found.acc_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh))
      (xTile m c ⟨n + 1, h⟩) (wTile m c ⟨n + 1, h⟩) (bTile m c ⟨n + 1, h⟩) (outsAt0 m c n (Nat.lt_of_succ_lt h)).2

/-- At a group's last point the output tile is the accumulator it has just written plus the bias row. -/
theorem out_last (c : Dev nD) (n : ℕ) (h : n + 1 < cfg0.N) (h1 : (n + 1) % 4 = 3) :
    (outsAt0 m c (n + 1) h).1 = k0_pay3 (outsAt0 m c (n + 1) h).2 (bTile m c ⟨n + 1, h⟩) := by
  have h0 : ¬(n + 1) % 4 = 0 := by omega
  rw [step_next m c n h h0, outsAt0_C m c ⟨n + 1, h⟩ h0 h1]
  dsimp only
  exact Found.out_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1)
    (xTile m c ⟨n + 1, h⟩) (wTile m c ⟨n + 1, h⟩) (bTile m c ⟨n + 1, h⟩) (outsAt0 m c n (Nat.lt_of_succ_lt h)).2

/-! ## The running sum -/

/-- The share of block `kb` in entry (p, q) of group `g`'s tile. -/
abbrev share (c : Dev nD) (g : ℕ) (p q : Fin 1024) (kb : ℕ) : EReal :=
  blockDot (argX m c) (argW m c) (argA m c) (argB m c) (batchOf (rowOf g p)) (posOf (rowOf g p)) (outOf g q) kb

/-- The product of the tiles point `t` loads, at (p, q), is the share of the point's block. -/
theorem tile_dot (c : Dev nD) (t : Fin cfg0.N) (p q : Fin 1024) :
    ∑ kk : Fin 1024, xTile m c t (ix2 p kk) * wTile m c t (ix2 kk q) = share m c (t.val / 4) p q (t.val % 4) := by
  unfold share blockDot
  refine Finset.sum_congr rfl fun kk _ => ?_
  rw [xTile_apply, wTile_apply]

/-- After point `n` the accumulator holds the shares of the blocks up to the point's. -/
theorem acc_apply (c : Dev nD) : ∀ (n : ℕ) (h : n < cfg0.N) (p q : Fin 1024),
    (outsAt0 m c n h).2 (ix2 p q) = ∑ kb ∈ Finset.range (n % 4 + 1), share m c (n / 4) p q kb
  | 0, h, p, q => by
    rw [step_first m c ⟨0, h⟩ rfl, Tile.update_apply, Tile.reset_apply, zero_add, tile_dot]
    simp
  | n + 1, h, p, q => by
    by_cases h0 : (n + 1) % 4 = 0
    · rw [step_first m c ⟨n + 1, h⟩ h0, Tile.update_apply, Tile.reset_apply, zero_add, tile_dot]
      show share m c ((n + 1) / 4) p q ((n + 1) % 4) = _
      rw [h0]
      simp
    · rw [step_next m c n h h0, Tile.update_apply, acc_apply c n (Nat.lt_of_succ_lt h) p q, tile_dot]
      show _ + share m c ((n + 1) / 4) p q ((n + 1) % 4) = _
      have e1 : n % 4 + 1 = (n + 1) % 4 := by omega
      have e2 : n / 4 = (n + 1) / 4 := by omega
      rw [e1, e2, Finset.sum_range_succ]

/-- At a group's last point the tile written out is the folded layer at the group's rows and output columns. -/
theorem out_apply (c : Dev nD) (n : ℕ) (h : n + 1 < cfg0.N) (h1 : (n + 1) % 4 = 3) (p q : Fin 1024) :
    (outsAt0 m c (n + 1) h).1 (ix2 p q)
      = foldedAt (argX m c) (argW m c) (argBias m c) (argA m c) (argB m c)
          (batchOf (rowOf ((n + 1) / 4) p)) (posOf (rowOf ((n + 1) / 4) p)) (outOf ((n + 1) / 4) q) := by
  rw [out_last m c n h h1, Tile.emit_apply, acc_apply m c (n + 1) h p q, bTile_apply, h1]
  rfl

end Cert.KernelIdeal.Accum

end
-- ==== Proof.Result.lean ====
/-
  The idealized kernel's run, read: its result is the folded layer.

  Each group's last grid point writes its tile back; the sixty-four tiles are the blocks (row tile, column tile) of
  the 16384 × 4096 result, so they cover it, and the result array ends holding, at (r, o), the folded layer of
  flattened row `r` and output `o`. The program's last line reshapes that to [4, 4096, 4096]: entry (n, s, o) is the
  flattened entry (4096 n + s, o).
-/
import proofs.«116034_j19954418057628_1_alg».proof.Proof.Accum
import Idealize.ShloMosaic.Lib.Pipeline.Value
import Idealize.ShloMosaic.Lib.StableHlo.Run

noncomputable section

open Idealize.ShloMosaic Idealize.ShloMosaic.TcCoe Idealize.SL.Sem Idealize.ShloMosaic.StableHlo Idealize.ShloMosaic.ValueIdx
open Idealize.ShloMosaic.Pipeline (Dat)

namespace Cert.KernelIdeal.Whole

open Cert.KernelIdeal Cert.KernelIdeal.Gen Cert.KernelIdeal.Entry Cert.Layer

variable (m : (ℓ : Loc nD τ sig) → Buf (Elt Ideal) ℓ) (ρ : Dev nD → PrngReg)

/-- The region's result array: at (r, o) the folded layer of flattened row `r` and output `o`. -/
def flatOut (c : Dev nD) : Buf (Elt Ideal) ((c : Thread nD τ).loc main_v5) := fun i =>
  foldedAt (argX m c) (argW m c) (argBias m c) (argA m c) (argB m c) (batchOf (i 0)) (posOf (i 0)) (i 1)

/-- The tile written out at a group's last point, at any index of the tile. -/
theorem out_at (c : Dev nD) (n : ℕ) (h : n + 1 < cfg0.N) (h1 : (n + 1) % 4 = 3) (y : S1024x1024.Idx) :
    (outsAt0 m c (n + 1) h).1 y
      = foldedAt (argX m c) (argW m c) (argBias m c) (argA m c) (argB m c)
          (batchOf (rowOf ((n + 1) / 4) (y 0))) (posOf (rowOf ((n + 1) / 4) (y 0))) (outOf ((n + 1) / 4) (y 1)) := by
  obtain ⟨p, q, rfl⟩ : ∃ (p q : Fin 1024), y = ix2 p q := ⟨y 0, y 1, eq_ix2 y⟩
  exact Accum.out_apply m c n h h1 p q

/-- What a flushing point writes back is its block of `flatOut`. -/
theorem flushed_eq (c : Dev nD) (t : Fin cfg0.N) (hf : (cfg0.win 3).flush t = true) :
    (dats m 0 c).flushed 3 t = ((cfg0.win 3).blk t).view.read (Elt Ideal) (flatOut m c) := by
  have h3 : t.val % 4 = 3 := (flush0_3 t).mp hf
  obtain ⟨_ | n, h⟩ := t
  · exact absurd h3 (by show ¬0 % 4 = 3; decide)
  obtain ⟨-, -, -, -, -, -, e0, e1⟩ := tileIdx ⟨n + 1, h⟩
  have hN : n + 1 < 256 := lt_of_lt_of_eq h N_0
  show (cfg0.win 3).cut (grid0.coords ⟨n + 1, h⟩) ((dats m 0 c).after 3 ⟨n + 1, h⟩) = _
  rw [after0_3]
  funext j
  rw [View.read_apply]
  show (outsAt0 m c (n + 1) h).1 ((cfg0.win 3).xinj (grid0.coords ⟨n + 1, h⟩) j)
    = flatOut m c (((cfg0.win 3).blk ⟨n + 1, h⟩).view.emb j)
  rw [out_at m c n h h3]
  unfold flatOut
  have hj0 : (j 0).val < 1024 := (j 0).isLt
  have hj1 : (j 1).val < 1024 := (j 1).isLt
  have er : (((cfg0.win 3).blk ⟨n + 1, h⟩).view.emb j) 0
      = rowOf ((n + 1) / 4) (((cfg0.win 3).xinj (grid0.coords ⟨n + 1, h⟩) j) 0) := Fin.ext (by
    show win0_3.index ⟨n + 1, h⟩ (0 : Fin 2) * 1024 + 1 * (j 0).val = (1024 * ((n + 1) / 4 / 4) + (j 0).val) % 16384
    rw [e0]; show (n + 1) / 16 * 1024 + 1 * (j 0).val = _; omega)
  have eo : (((cfg0.win 3).blk ⟨n + 1, h⟩).view.emb j) 1
      = outOf ((n + 1) / 4) (((cfg0.win 3).xinj (grid0.coords ⟨n + 1, h⟩) j) 1) := Fin.ext (by
    show win0_3.index ⟨n + 1, h⟩ (1 : Fin 2) * 1024 + 1 * (j 1).val = (1024 * ((n + 1) / 4 % 4) + (j 1).val) % 4096
    rw [e1]; show (n + 1) / 4 % 4 * 1024 + 1 * (j 1).val = _; omega)
  rw [er, eo]

/-- An index of the result is in point `t`'s block iff each coordinate is in the block's range on its axis. -/
theorem mem_tile (t : Fin cfg0.N) (i : S16384x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Every index of the result is in the block of the last point of its group. -/
theorem cover (i : S16384x4096.Idx) :
    ∃ t : Fin cfg0.N, (cfg0.win 3).flush t = true ∧ i ∈ ((cfg0.win 3).blk t).view.set := by
  have h0 : (i 0).val < 16384 := (i 0).isLt
  have h1 : (i 1).val < 4096 := (i 1).isLt
  have hN : cfg0.N = 256 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3, by rw [hN]; omega⟩, rfl⟩
  obtain ⟨-, -, -, -, -, -, e0, e1⟩ := tileIdx t
  refine ⟨t, (flush0_3 t).mpr (by rw [ht]; omega), ?_⟩
  rw [mem_tile]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

/-- So the region's result array ends holding `flatOut`. -/
theorem final_out (c : Dev nD) : (dats m 0 c).arrAt 3 cfg0.N = flatOut m c :=
  (dats m 0 c).arrAt_eq_of_cover 3 (flatOut m c) (flushed_eq m c) cover

/-- The program's last line reshapes the region's result. -/
theorem tail_eq (c : Dev nD) :
    Pipeline.afterTail₀ cfgs (dats m) 0 (V0 m) [hostOps1] c main_v6
      = shapeCast S4x4096x4096 (flatOut m c) shapeCasts_S16384x4096_S4x4096x4096 := by
  have e := (Pipeline.withArrays_arr spec0 launch0.win.arr_inj c (V0 m c)
    (fun w => (dats m 0 c).arrAt w (cfgs 0).N) 3).trans (final_out m c)
  unfold Pipeline.afterTail₀
  show StableHlo.after hostOps1 _ (Proc.devRef .tc main_v6) = _
  after_results
  funext i
  show shapeCast S4x4096x4096 (Pipeline.withArrays spec0 c (V0 m c) (fun w => (dats m 0 c).arrAt w (cfgs 0).N)
    (Proc.devRef .tc main_v5)) shapeCasts_S16384x4096_S4x4096x4096 i = _
  rw [e]

/-- The reshaped result is the folded layer as an array over (batch, position, output). -/
theorem result_eq (c : Dev nD) :
    shapeCast S4x4096x4096 (flatOut m c) shapeCasts_S16384x4096_S4x4096x4096
      = folded (argX m c) (argW m c) (argBias m c) (argA m c) (argB m c) := by
  funext i
  obtain ⟨n, s, o, rfl⟩ : ∃ (n : Fin 4) (s o : Fin 4096), i = ix3 n s o := ⟨i 0, i 1, i 2, eq_ix3 i⟩
  have hn := n.isLt
  have hs := s.isLt
  rw [shapeCast_apply _ _ (ix3 n s o) (ix2 (⟨4096 * n.val + s.val, by omega⟩ : Fin 16384) o) (by
    rw [Shape.rowMajor_val_two, Shape.rowMajor_val_three]
    show (4096 * n.val + s.val) * 4096 + o.val = (n.val * 4096 + s.val) * 4096 + o.val
    omega)]
  have eb : batchOf (⟨4096 * n.val + s.val, by omega⟩ : Fin 16384) = n := Fin.ext (by
    show (4096 * n.val + s.val) / 4096 = n.val; omega)
  have ep : posOf (⟨4096 * n.val + s.val, by omega⟩ : Fin 16384) = s := Fin.ext (by
    show (4096 * n.val + s.val) % 4096 = s.val; omega)
  show foldedAt _ _ _ _ _ (batchOf (⟨4096 * n.val + s.val, _⟩ : Fin 16384)) (posOf (⟨4096 * n.val + s.val, _⟩ : Fin 16384)) o
    = foldedAt _ _ _ _ _ n s o
  rw [eb, ep]

/-- The idealized kernel's run: the result at the folded layer of the arguments, the arguments unchanged. -/
theorem run : θ_run defs (onTc (τ := τ) (main (F := Ideal))) ⟨m, fun _ => 0, ρ⟩ fun r => ∀ c : Dev nD,
      r.2.mem ((c.tc : Thread nD τ).loc main_v6) = folded (argX m c) (argW m c) (argBias m c) (argA m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Whole

end
-- ==== Proof.lean ====
/-
  A linear layer with a rank-16 update, `x · Wᵀ + b + x · (B A)ᵀ`, computed by a kernel that first folds the update
  into the weight (`W + B A`, transposed) and then multiplies tile by tile — a 16 × 4 × 4 grid of 1024-cubed tile
  products accumulated over the grid's last axis, the bias added when a tile is written out — against the reference
  that keeps the two products apart.

  Over the extended reals the kernel's result is the folded layer, four column blocks summed in order and the bias
  last (Result.lean, over the accumulator's running sum of Accum.lean); the reference's is the layer with the two
  products apart (RefLayer.lean). The two agree where every input entry is a real number, which is what the
  precondition says (Finite.lean): the identity `x (w + l) = x w + x l` needs it, regrouping the sum into blocks does
  not (Layer.lean). The kernel's two frames are the generated ones; the reference's frame is its generated run with
  the result dropped; the idealization rewrote nothing.
-/
import proofs.«116034_j19954418057628_1_alg».proof.Defs
import proofs.«116034_j19954418057628_1_alg».proof.Proof.Gen.Kernel
import proofs.«116034_j19954418057628_1_alg».proof.Proof.Gen.Kernel.Skeleton
import proofs.«116034_j19954418057628_1_alg».proof.Proof.Gen.Kernel.Launch
import proofs.«116034_j19954418057628_1_alg».proof.Proof.Gen.Kernel.Points
import proofs.«116034_j19954418057628_1_alg».proof.Proof.Gen.Kernel.Frame
import proofs.«116034_j19954418057628_1_alg».proof.Proof.Gen.KernelIdeal
import proofs.«116034_j19954418057628_1_alg».proof.Proof.Gen.KernelIdeal.Skeleton
import proofs.«116034_j19954418057628_1_alg».proof.Proof.Gen.KernelIdeal.Launch
import proofs.«116034_j19954418057628_1_alg».proof.Proof.Gen.KernelIdeal.Points
import proofs.«116034_j19954418057628_1_alg».proof.Proof.Gen.KernelIdeal.Frame
import proofs.«116034_j19954418057628_1_alg».proof.Proof.Gen.ReferenceIdeal
import proofs.«116034_j19954418057628_1_alg».proof.Proof.Gen.Pre_finite_inputs
import proofs.«116034_j19954418057628_1_alg».proof.Proof.Gen.ReferenceIdeal.Run
import proofs.«116034_j19954418057628_1_alg».proof.Proof.Gen.ReferenceIdeal.Read
import proofs.«116034_j19954418057628_1_alg».proof.Proof.Layer
import proofs.«116034_j19954418057628_1_alg».proof.Proof.Finite
import proofs.«116034_j19954418057628_1_alg».proof.Proof.RefLayer
import proofs.«116034_j19954418057628_1_alg».proof.Proof.Result
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the layer of the arguments: the kernel at the folded form, the reference at the form
    with the two products apart, equal where the entries are real numbers. -/
theorem algebraic : Cert.algebraic_KernelIdeal_ReferenceIdeal := by
  intro m ρ m' ρ' hpre hagree
  refine ⟨fun c => Cert.Layer.folded (Cert.KernelIdeal.Entry.argX m c) (Cert.KernelIdeal.Entry.argW m c)
    (Cert.KernelIdeal.Entry.argBias m c) (Cert.KernelIdeal.Entry.argA m c) (Cert.KernelIdeal.Entry.argB m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Whole.result_eq _ _ _ _ _).trans ?_
  rw [(hagree c).1, (hagree c).2.1, (hagree c).2.2.1, (hagree c).2.2.2.1, (hagree c).2.2.2.2]
  obtain ⟨hx, hW, hb, hA, hB⟩ := Cert.Finite.of_pre _ _ _ _ _ (hpre c)
  exact (Cert.Layer.folded_eq_split _ _ _ _ _ hx hW hb hA hB).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
